-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x320 : Shape := ⟨2, ![100000, 320]⟩
abbrev S2x1600000 : Shape := ⟨2, ![2, 1600000]⟩
abbrev S100000 : Shape := ⟨1, ![100000]⟩
abbrev S320x128 : Shape := ⟨2, ![320, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S100000x320 : S_.BroadcastsInDim S100000x320 (![] : Fin 0 → Fin S100000x320.rank)
  reducesTo_S100000x320_S_d0_1 : S100000x320.ReducesTo [0, 1] S_
  h_S_ : 0 < S_.numel
  bcast_S_S320x128 : S_.BroadcastsInDim S320x128 (![] : Fin 0 → Fin S320x128.rank)
  reducesTo_S320x128_S_d0_1 : S320x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S128 .f32) (main_arg7 : FVec F S128x2 .f32) (main_arg8 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg7
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x320 .f32) (main_arg1 : IVec S2x1600000 32) (main_arg2 : IVec S100000 32) (main_arg3 : FVec F S320x128 .f32) (main_arg4 : FVec F S128 .f32) (main_arg5 : FVec F S128x128 .f32) (main_arg6 : FVec F S128 .f32) (main_arg7 : FVec F S128x2 .f32) (main_arg8 : FVec F S2 .f32) : IVec S_ 1 :=
  let main_v0 : FVec F S100000x320 .f32 := Host.absf main_arg0
  let main_cst : FVec F S_ .f32 := constant S_ .f32 0x7F800000#32
  let main_v1 : FVec F S100000x320 .f32 := broadcastInDim S100000x320 ![] bcast_S_S100000x320 main_cst
  let main_v2 : IVec S100000x320 1 := cmpf .olt main_v0 main_v1
  let main_c : IVec S_ 1 := constantI S_ 1 1#1
  let main_v3 : IVec S_ 1 := (fun x v => Host.reduce IntOp.andi x v reducesTo_S100000x320_S_d0_1 h_S_) main_v2 main_c
  let main_v4 : FVec F S320x128 .f32 := Host.absf main_arg3
  let main_cst_0 : FVec F S_ .f32 := constant S_ .f32 0x7F800000#32
  let main_v5 : FVec F S320x128 .f32 := broadcastInDim S320x128 ![] bcast_S_S320x128 main_cst_0
  let main_v6 : IVec S320x128 1 := cmpf .olt main_v4 main_v5
  let main_c_1 : IVec S_ 1 := constantI S_ 1 1#1
  let main_v7 : IVec S_ 1 := (fun x v => Host.reduce IntOp.andi x v reducesTo_S320x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x320 : Shape := ⟨2, ![100000, 320]⟩
abbrev S2x1600000 : Shape := ⟨2, ![2, 1600000]⟩
abbrev S100000 : Shape := ⟨1, ![100000]⟩
abbrev S320x128 : Shape := ⟨2, ![320, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x320 : Shape := ⟨2, ![2000, 320]⟩
abbrev S2000x128 : Shape := ⟨2, ![2000, 128]⟩
abbrev S1700000x128 : Shape := ⟨2, ![1700000, 128]⟩
abbrev S1x128 : Shape := ⟨2, ![1, 128]⟩
abbrev S4000x128 : Shape := ⟨2, ![4000, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S1x2 : Shape := ⟨2, ![1, 2]⟩
abbrev S512x2 : Shape := ⟨2, ![512, 2]⟩

abbrev nBuf : Space → Nat
  | .hbm => 104
  | .vmem => 24
  | .smem => 0
  | _ => 0

abbrev bufTy : (tb : Table) → Fin (tcTables nBuf tb) → BufTy
  | .hbm, ⟨0, _⟩ => ⟨S100000x320, .f32⟩
  | .hbm, ⟨1, _⟩ => ⟨S2x1600000, .i32⟩
  | .hbm, ⟨2, _⟩ => ⟨S100000, .i32⟩
  | .hbm, ⟨3, _⟩ => ⟨S320x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S1700000x1, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x128, .f32⟩
  | .hbm, ⟨78, _⟩ => ⟨S1700000x128, .f32⟩
  | .hbm, ⟨79, _⟩ => ⟨S1700000x128, .f32⟩
  | .hbm, ⟨80, _⟩ => ⟨S_, .f32⟩
  | .hbm, ⟨81, _⟩ => ⟨S100000x128, .f32⟩
  | .hbm, ⟨82, _⟩ => ⟨S1700000x1, .i32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S_, .f32⟩
  | .hbm, ⟨87, _⟩ => ⟨S512x128, .f32⟩
  | .hbm, ⟨88, _⟩ => ⟨S100000x1, .i32⟩
  | .hbm, ⟨89, _⟩ => ⟨S512x128, .f32⟩
  | .hbm, ⟨90, _⟩ => ⟨S_, .f32⟩
  | .hbm, ⟨91, _⟩ => ⟨S100000, .f32⟩
  | .hbm, ⟨92, _⟩ => ⟨S_, .f32⟩
  | .hbm, ⟨93, _⟩ => ⟨S512, .f32⟩
  | .hbm, ⟨94, _⟩ => ⟨S100000x1, .i32⟩
  | .hbm, ⟨95, _⟩ => ⟨S512, .f32⟩
  | .hbm, ⟨96, _⟩ => ⟨S_, .f32⟩
  | .hbm, ⟨97, _⟩ => ⟨S512, .f32⟩
  | .hbm, ⟨98, _⟩ => ⟨S512, .f32⟩
  | .hbm, ⟨99, _⟩ => ⟨S512x1, .f32⟩
  | .hbm, ⟨100, _⟩ => ⟨S512x128, .f32⟩
  | .hbm, ⟨101, _⟩ => ⟨S512x128, .f32⟩
  | .hbm, ⟨102, _⟩ => ⟨S1x2, .f32⟩
  | .hbm, ⟨103, _⟩ => ⟨S512x2, .f32⟩
  | .local _ .vmem, ⟨0, _⟩ => ⟨S2000x320, .f32⟩
  | .local _ .vmem, ⟨1, _⟩ => ⟨S2000x320, .f32⟩
  | .local _ .vmem, ⟨2, _⟩ => ⟨S320x128, .f32⟩
  | .local _ .vmem, ⟨3, _⟩ => ⟨S2000x128, .f32⟩
  | .local _ .vmem, ⟨4, _⟩ => ⟨S2000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S4000x128, .f32⟩
  | .local _ .vmem, ⟨16, _⟩ => ⟨S4000x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S512x128, .f32⟩
  | .local _ .vmem, ⟨21, _⟩ => ⟨S128x2, .f32⟩
  | .local _ .vmem, ⟨22, _⟩ => ⟨S1x2, .f32⟩
  | .local _ .vmem, ⟨23, _⟩ => ⟨S512x2, .f32⟩
  | _, _ => ⟨S100000x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_15 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S320x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x320_S2000x320_0_0 : ∀ a, (![0, 0] : Fin 2 → Nat) a + S2000x320.size a ≤ S2000x320.size a
  h_S2000x320 : 0 < S2000x320.numel
  bitsLt_bf16_f32 : FTy.bits .bf16 < FTy.bits .f32
  inb_S320x128_S320x128_0_0 : ∀ a, (![0, 0] : Fin 2 → Nat) a + S320x128.size a ≤ S320x128.size a
  h_S320x128 : 0 < S320x128.numel
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  shapeCasts_S2_S1x2 : S2.ShapeCasts S1x2
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x320_S320x128_S2000x128_1_0_0_1_n_n_wf : DotDims.WF S2000x320 S320x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x128_S2000x128_1_0_0_1_n_n_wf : DotDims.WF S2000x128 S128x128 S2000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x2_S512x2_1_0_0_1_n_n_wf : DotDims.WF S512x128 S128x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x320.size a ≤ S100000x320.size a
  hwx0_0 : ∀ i : grid0.Coords, EltTy.bits .f32 = 32 ∨ (Rect.block (s := S100000x320) S2000x320.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S320x128.size a ≤ S320x128.size a
  hwx0_1 : ∀ i : grid0.Coords, EltTy.bits .f32 = 32 ∨ (Rect.block (s := S320x128) S320x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .f32 = 32 ∨ (Rect.block (s := S100000x128) S4000x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x128.size a ≤ S512x128.size a
  hwx4_0 : ∀ i : grid4.Coords, EltTy.bits .f32 = 32 ∨ (Rect.block (s := S512x128) S512x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x2.size a ≤ S128x2.size a
  hwx4_1 : ∀ i : grid4.Coords, EltTy.bits .f32 = 32 ∨ (Rect.block (s := S128x2) S128x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x2.size a ≤ S512x2.size a
  hwx4_3 : ∀ i : grid4.Coords, EltTy.bits .f32 = 32 ∨ (Rect.block (s := S512x2) S512x2.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x320_S320x128_S2000x128_1_0_0_1_n_n : DotDims S2000x320 S320x128 S2000x128 where
  lhsContracting := [1]
  rhsContracting := [0]
  lhsNonContracting := [0]
  rhsNonContracting := [1]
  lhsBatch := []
  rhsBatch := []
  wf := dot_S2000x320_S320x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.ofSpec (Memref.whole main_arg0) S2000x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S320x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S4000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v72) S512x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v73) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v74) S512x2.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x320 : Shape := ⟨2, ![100000, 320]⟩
abbrev S2x1600000 : Shape := ⟨2, ![2, 1600000]⟩
abbrev S100000 : Shape := ⟨1, ![100000]⟩
abbrev S320x128 : Shape := ⟨2, ![320, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S100000x128 : Shape := ⟨2, ![100000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 148
  | .vmem => 0
  | .smem => 0
  | _ => 0

abbrev hbmTy0_0 (i : Nat) : BufTy := match i % 128 with
  | 0 => ⟨S100000x320, .f32⟩
  | 1 => ⟨S2x1600000, .i32⟩
  | 2 => ⟨S100000, .i32⟩
  | 3 => ⟨S320x128, .f32⟩
  | 4 => ⟨S128, .f32⟩
  | 5 => ⟨S128x128, .f32⟩
  | 6 => ⟨S128, .f32⟩
  | 7 => ⟨S128x2, .f32⟩
  | 8 => ⟨S2, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S100000x128, .f32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S_, .f32⟩
  | 74 => ⟨S1700000, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S1700000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x128, .f32⟩
  | 115 => ⟨S1700000x1, .f32⟩
  | 116 => ⟨S1700000x128, .f32⟩
  | 117 => ⟨S1700000x128, .f32⟩
  | 118 => ⟨S_, .f32⟩
  | 119 => ⟨S100000x128, .f32⟩
  | 120 => ⟨S1700000x1, .i32⟩
  | 121 => ⟨S100000x128, .f32⟩
  | 122 => ⟨S1x128, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S100000x320, .f32⟩

abbrev hbmTy0_1 (i : Nat) : BufTy := match i % 128 with
  | 0 => ⟨S_, .f32⟩
  | 1 => ⟨S512x128, .f32⟩
  | 2 => ⟨S100000x1, .i32⟩
  | 3 => ⟨S512x128, .f32⟩
  | 4 => ⟨S_, .f32⟩
  | 5 => ⟨S100000, .f32⟩
  | 6 => ⟨S_, .f32⟩
  | 7 => ⟨S512, .f32⟩
  | 8 => ⟨S100000x1, .i32⟩
  | 9 => ⟨S512, .f32⟩
  | 10 => ⟨S_, .f32⟩
  | 11 => ⟨S512, .f32⟩
  | 12 => ⟨S512, .f32⟩
  | 13 => ⟨S512x1, .f32⟩
  | 14 => ⟨S512x128, .f32⟩
  | 15 => ⟨S512x128, .f32⟩
  | 16 => ⟨S512x2, .f32⟩
  | 17 => ⟨S1x2, .f32⟩
  | 18 => ⟨S512x2, .f32⟩
  | 19 => ⟨S512x2, .f32⟩
  | _ => ⟨S100000x320, .f32⟩

abbrev hbmTy (i : Nat) : BufTy := match i / 128 with
  | 0 => hbmTy0_0 i
  | 1 => hbmTy0_1 i
  | _ => ⟨S100000x320, .f32⟩

abbrev bufTy : (tb : Table) → Fin (tcTables nBuf tb) → BufTy
  | .hbm, ⟨i, _⟩ => hbmTy i
  | _, _ => ⟨S100000x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v56 : Ref sig .tc := ⟨.hbm, 86, rfl⟩
abbrev main_c_13 : Ref sig .tc := ⟨.hbm, 87, rfl⟩
abbrev main_v57 : Ref sig .tc := ⟨.hbm, 88, rfl⟩
abbrev main_v58 : Ref sig .tc := ⟨.hbm, 89, rfl⟩
abbrev main_c_14 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_15 : Ref sig .tc := ⟨.hbm, 96, rfl⟩
abbrev main_v64 : Ref sig .tc := ⟨.hbm, 97, rfl⟩
abbrev main_v65 : Ref sig .tc := ⟨.hbm, 98, rfl⟩
abbrev main_c_16 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_17 : Ref sig .tc := ⟨.hbm, 106, rfl⟩
abbrev main_v72 : Ref sig .tc := ⟨.hbm, 107, rfl⟩
abbrev main_v73 : Ref sig .tc := ⟨.hbm, 108, rfl⟩
abbrev main_c_18 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_19 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_call3_cst : Ref sig .tc := ⟨.hbm, 125, rfl⟩
abbrev main_call3_v0 : Ref sig .tc := ⟨.hbm, 126, rfl⟩
abbrev main_v88 : Ref sig .tc := ⟨.hbm, 127, rfl⟩
abbrev main_cst_20 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_21 : Ref sig .tc := ⟨.hbm, 132, rfl⟩
abbrev main_v92 : Ref sig .tc := ⟨.hbm, 133, rfl⟩
abbrev main_cst_22 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_23 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  dot_S100000x320_S320x128_S100000x128_1_0_0_1_n_n_wf : DotDims.WF S100000x320 S320x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x2_S512x2_1_0_0_1_n_n_wf : DotDims.WF S512x128 S128x2 S512x2 [1] [0] [0] [1] [] []

variable [Facts₀]

def dot_S100000x320_S320x128_S100000x128_1_0_0_1_n_n : DotDims S100000x320 S320x128 S100000x128 where
  lhsContracting := [1]
  rhsContracting := [0]
  lhsNonContracting := [0]
  rhsNonContracting := [1]
  lhsBatch := []
  rhsBatch := []
  wf := dot_S100000x320_S320x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

class Facts : Prop extends Facts₀ where

variable [Facts]
-- ==== Proof.Layers.lean ====
/-
  Two whole-array functions both programs apply, named once over plain arrays, each with its reading at an entry.
  `biasRelu a b`: add the bias row b to every row of a and clamp at zero — entry (r, j) is max (a (r, j) + b (0, j)) 0.
  `fc p w b`: the product p · w plus the bias row b — entry (g, o) is (∑ k, p (g, k) · w (k, o)) + b (0, o).
  They are written with the reference's own operations, so the reference's stages are these functions on the nose.
-/
import proofs.«122157_j40664750358926_1_alg».proof.Proof.RefRead
import Idealize.ShloMosaic.Lib.Pipeline.Value
import Idealize.ShloMosaic.Lib.ValueIdx
import Idealize.ShloMosaic.PureOps.Ideal.Laws

noncomputable section

namespace Cert.ReferenceIdeal.Layers

open Cert.ReferenceIdeal Cert.ReferenceIdeal.Gen Cert.ReferenceIdeal.ReadP Idealize.ShloMosaic Idealize.ShloMosaic.TcCoe Idealize.SL.Sem

/-- A bias row added to every row, then clamped at zero. -/
def biasRelu (a : FVec Ideal S100000x128 .f32) (b : FVec Ideal S1x128 .f32) : FVec Ideal S100000x128 .f32 :=
  maximumf (addf a (broadcastInDim S100000x128 ![0, 1] bcast_S1x128_S100000x128_0_1 b)) (val_main_call1_v0 (F := Ideal))

theorem biasRelu_apply (a : FVec Ideal S100000x128 .f32) (b : FVec Ideal S1x128 .f32) (i : S100000x128.Idx) :
    biasRelu a b i = FloatOps.maximumf (FloatOps.addf (a i) (b (idx_main_v45 i))) (FloatOps.ofBits .f32 0x00000000#32) := by
  have hb : broadcastInDim S100000x128 ![0, 1] bcast_S1x128_S100000x128_0_1 b i = b (idx_main_v45 i) :=
    broadcastInDim_apply _ bcast_S1x128_S100000x128_0_1 b i (idx_main_v45 i) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])
  show FloatOps.maximumf (FloatOps.addf (a i) (broadcastInDim S100000x128 ![0, 1] bcast_S1x128_S100000x128_0_1 b i)) (val_main_call1_v0 (F := Ideal) i) = _
  rw [hb, val_main_call1_v0_apply, val_main_call1_cst_apply]

/-- The last linear layer: a product plus a bias row. -/
def fc (p : FVec Ideal S512x128 .f32) (w : FVec Ideal S128x2 .f32) (b : FVec Ideal S1x2 .f32) : FVec Ideal S512x2 .f32 :=
  addf (Host.dotGeneral dot_S512x128_S128x2_S512x2_1_0_0_1_n_n none p w) (broadcastInDim S512x2 ![0, 1] bcast_S1x2_S512x2_0_1 b)

theorem fc_apply (p : FVec Ideal S512x128 .f32) (w : FVec Ideal S128x2 .f32) (b : FVec Ideal S1x2 .f32) (i : S512x2.Idx) :
    fc p w b i = FloatOps.addf (∑ k : Fin 128, p (lidx_main_v101 i k) * w (ridx_main_v101 i k)) (b (idx_main_v103 i)) := by
  have hb : broadcastInDim S512x2 ![0, 1] bcast_S1x2_S512x2_0_1 b i = b (idx_main_v103 i) :=
    broadcastInDim_apply _ bcast_S1x2_S512x2_0_1 b i (idx_main_v103 i) (fun a => match a with
      | ⟨0, _⟩ => by show 0 = if (1 : Nat) = 1 then 0 else (i 0).val; rw [if_pos rfl]
      | ⟨1, _⟩ => by show (i 1).val = if (2 : Nat) = 1 then 0 else (i 1).val; rw [if_neg (by decide)])
  have hd : Host.dotGeneral (F := Ideal) dot_S512x128_S128x2_S512x2_1_0_0_1_n_n none p w i = ∑ k : Fin 128, p (lidx_main_v101 i k) * w (ridx_main_v101 i k) := by
    simp only [Host.dotGeneral]
    rw [Ideal.dotGeneral_apply, ← Equiv.sum_comp (ValueIdx.contrEquiv1 dot_S512x128_S128x2_S512x2_1_0_0_1_n_n 128 rfl rfl).symm]
    refine Finset.sum_congr rfl fun k _ => ?_
    have hk := ValueIdx.contrEquiv1_symm_val dot_S512x128_S128x2_S512x2_1_0_0_1_n_n 128 rfl rfl k
    have el : dot_S512x128_S128x2_S512x2_1_0_0_1_n_n.lhsIdx i ((ValueIdx.contrEquiv1 dot_S512x128_S128x2_S512x2_1_0_0_1_n_n 128 rfl rfl).symm k) = lidx_main_v101 i k := funext fun a => Fin.ext (by
      match a with
      | ⟨0, _⟩ => exact lhs_main_v101_0 _ _
      | ⟨1, _⟩ => exact (lhs_main_v101_1 _ _).trans hk)
    have er : dot_S512x128_S128x2_S512x2_1_0_0_1_n_n.rhsIdx i ((ValueIdx.contrEquiv1 dot_S512x128_S128x2_S512x2_1_0_0_1_n_n 128 rfl rfl).symm k) = ridx_main_v101 i k := funext fun a => Fin.ext (by
      match a with
      | ⟨0, _⟩ => exact (rhs_main_v101_0 _ _).trans hk
      | ⟨1, _⟩ => exact rhs_main_v101_1 _ _)
    rw [el, er]
  show FloatOps.addf (Host.dotGeneral (F := Ideal) dot_S512x128_S128x2_S512x2_1_0_0_1_n_n none p w i) (broadcastInDim S512x2 ![0, 1] bcast_S1x2_S512x2_0_1 b i) = _
  rw [hd, hb]

end Cert.ReferenceIdeal.Layers

end
-- ==== Proof.Region0.lean ====
/-
  Region 0: a matrix product tiled over row blocks. Grid point t takes rows 2000·t … 2000·t + 1999 of the left
  array (all 320 columns) and the whole 320 × 128 right array, and writes their product into the same rows of the
  result. The change of float format in front of the matrix unit is the identity on the extended reals, and a
  product into a zero accumulator is the plain sum over the shared axis; so entry (r, j) of block t is
  ∑ k, left (2000·t + r, k) · right (k, j), which is entry (2000·t + r, j) of the one product of the whole arrays — the
  host's `dot_general` read at an index. The blocks tile the rows, so the result array ends holding that product.
-/
import proofs.«122157_j40664750358926_1_alg».proof.Proof.Gen.KernelIdeal.Frame
import proofs.«122157_j40664750358926_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Whole0

open Cert.KernelIdeal Cert.KernelIdeal.Gen Idealize.ShloMosaic Idealize.ShloMosaic.TcCoe Idealize.SL.Sem
open Idealize.ShloMosaic.Pipeline (Dat)

theorem origin : (![0, 0] : Fin 2 → Nat) = fun _ => 0 := funext fun a => by fin_cases a <;> rfl

/-! ## The block product at an entry -/

theorem lhs_axis0 (i : S2000x128.Idx) (q : dot_S2000x320_S320x128_S2000x128_1_0_0_1_n_n.contr.Idx) :
    (dot_S2000x320_S320x128_S2000x128_1_0_0_1_n_n.lhsIdx i q 0).val = (i 0).val := by
  unfold DotDims.lhsIdx
  rw [dif_neg (show ¬(0 : Fin S2000x320.rank) ∈ dot_S2000x320_S320x128_S2000x128_1_0_0_1_n_n.lhsBatch by decide), dif_pos (show (0 : Fin S2000x320.rank) ∈ dot_S2000x320_S320x128_S2000x128_1_0_0_1_n_n.lhsNonContracting by decide)]
  rfl
theorem lhs_axis1 (i : S2000x128.Idx) (q : dot_S2000x320_S320x128_S2000x128_1_0_0_1_n_n.contr.Idx) :
    (dot_S2000x320_S320x128_S2000x128_1_0_0_1_n_n.lhsIdx i q 1).val = (q ⟨0, by decide⟩).val :=
  dot_S2000x320_S320x128_S2000x128_1_0_0_1_n_n.lhsIdx_val_of_single rfl i q
theorem rhs_axis0 (i : S2000x128.Idx) (q : dot_S2000x320_S320x128_S2000x128_1_0_0_1_n_n.contr.Idx) :
    (dot_S2000x320_S320x128_S2000x128_1_0_0_1_n_n.rhsIdx i q 0).val = (q ⟨0, by decide⟩).val :=
  dot_S2000x320_S320x128_S2000x128_1_0_0_1_n_n.rhsIdx_val_of_single rfl i q
theorem rhs_axis1 (i : S2000x128.Idx) (q : dot_S2000x320_S320x128_S2000x128_1_0_0_1_n_n.contr.Idx) :
    (dot_S2000x320_S320x128_S2000x128_1_0_0_1_n_n.rhsIdx i q 1).val = (i 1).val := by
  unfold DotDims.rhsIdx
  rw [dif_neg (show ¬(1 : Fin S320x128.rank) ∈ dot_S2000x320_S320x128_S2000x128_1_0_0_1_n_n.rhsBatch by decide), dif_pos (show (1 : Fin S320x128.rank) ∈ dot_S2000x320_S320x128_S2000x128_1_0_0_1_n_n.rhsNonContracting by decide)]
  rfl

/-- Row `i 0` of the left block, column `k`. -/
abbrev leftAt (i : S2000x128.Idx) (k : Fin 320) : S2000x320.Idx := fun a => match a with
  | ⟨0, _⟩ => ⟨(i 0).val, (i 0).isLt⟩
  | ⟨1, _⟩ => ⟨k.val, k.isLt⟩
/-- Row `k` of the right array, column `i 1`. -/
abbrev rightAt (i : S2000x128.Idx) (k : Fin 320) : S320x128.Idx := fun a => match a with
  | ⟨0, _⟩ => ⟨k.val, k.isLt⟩
  | ⟨1, _⟩ => ⟨(i 1).val, (i 1).isLt⟩

/-- What the body stores, at an entry: the sum over the shared axis of left times right. -/
theorem blockProduct_apply (x0 : Vec Ideal S2000x320 .f32) (x1 : Vec Ideal S320x128 .f32) (i : S2000x128.Idx) :
    k0_pay1 (F := Ideal) x0 x1 i = ∑ k : Fin 320, x0 (leftAt i k) * x1 (rightAt i k) := by
  unfold k0_pay1
  simp only [matmul, shapeCast_self]
  rw [Ideal.matmul_constant_zero_apply, ← Equiv.sum_comp (ValueIdx.contrEquiv1 dot_S2000x320_S320x128_S2000x128_1_0_0_1_n_n 320 rfl rfl).symm]
  refine Finset.sum_congr rfl fun k _ => ?_
  have hk := ValueIdx.contrEquiv1_symm_val dot_S2000x320_S320x128_S2000x128_1_0_0_1_n_n 320 rfl rfl k
  have el : dot_S2000x320_S320x128_S2000x128_1_0_0_1_n_n.lhsIdx i ((ValueIdx.contrEquiv1 dot_S2000x320_S320x128_S2000x128_1_0_0_1_n_n 320 rfl rfl).symm k) = leftAt i k := funext fun a => Fin.ext (by
    match a with
    | ⟨0, _⟩ => exact lhs_axis0 _ _
    | ⟨1, _⟩ => exact (lhs_axis1 _ _).trans hk)
  have er : dot_S2000x320_S320x128_S2000x128_1_0_0_1_n_n.rhsIdx i ((ValueIdx.contrEquiv1 dot_S2000x320_S320x128_S2000x128_1_0_0_1_n_n 320 rfl rfl).symm k) = rightAt i k := funext fun a => Fin.ext (by
    match a with
    | ⟨0, _⟩ => exact (rhs_axis0 _ _).trans hk
    | ⟨1, _⟩ => exact rhs_axis1 _ _)
  rw [el, er]
  rfl

/-! ## Block t of the result is block t of the whole product -/

/-- The index maps over the grid: the left window and the result move together down the rows, one block per point;
    the right window stays at the origin. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

variable (V : (c : Dev nD) → (b : Ref sig .tc) → Buf (Elt Ideal) ((c : Thread nD τ).loc b))

/-- The host's `dot_general` of two whole arrays at an entry: the sum over the shared axis. -/
theorem wholeProduct_apply (a : FVec Ideal Cert.ReferenceIdeal.S100000x320 .f32) (b : FVec Ideal Cert.ReferenceIdeal.S320x128 .f32) (i : Cert.ReferenceIdeal.S100000x128.Idx) :
    Host.dotGeneral (F := Ideal) Cert.ReferenceIdeal.dot_S100000x320_S320x128_S100000x128_1_0_0_1_n_n none a b i = ∑ k : Fin 320, a (Cert.ReferenceIdeal.ReadP.lidx_main_v7 i k) * b (Cert.ReferenceIdeal.ReadP.ridx_main_v7 i k) := by
  simp only [Host.dotGeneral]
  rw [Ideal.dotGeneral_apply, ← Equiv.sum_comp (ValueIdx.contrEquiv1 Cert.ReferenceIdeal.dot_S100000x320_S320x128_S100000x128_1_0_0_1_n_n 320 rfl rfl).symm]
  refine Finset.sum_congr rfl fun k _ => ?_
  have hk := ValueIdx.contrEquiv1_symm_val Cert.ReferenceIdeal.dot_S100000x320_S320x128_S100000x128_1_0_0_1_n_n 320 rfl rfl k
  have el : Cert.ReferenceIdeal.dot_S100000x320_S320x128_S100000x128_1_0_0_1_n_n.lhsIdx i ((ValueIdx.contrEquiv1 Cert.ReferenceIdeal.dot_S100000x320_S320x128_S100000x128_1_0_0_1_n_n 320 rfl rfl).symm k) = Cert.ReferenceIdeal.ReadP.lidx_main_v7 i k := funext fun a => Fin.ext (by
    match a with
    | ⟨0, _⟩ => exact Cert.ReferenceIdeal.ReadP.lhs_main_v7_0 _ _
    | ⟨1, _⟩ => exact (Cert.ReferenceIdeal.ReadP.lhs_main_v7_1 _ _).trans hk)
  have er : Cert.ReferenceIdeal.dot_S100000x320_S320x128_S100000x128_1_0_0_1_n_n.rhsIdx i ((ValueIdx.contrEquiv1 Cert.ReferenceIdeal.dot_S100000x320_S320x128_S100000x128_1_0_0_1_n_n 320 rfl rfl).symm k) = Cert.ReferenceIdeal.ReadP.ridx_main_v7 i k := funext fun a => Fin.ext (by
    match a with
    | ⟨0, _⟩ => exact (Cert.ReferenceIdeal.ReadP.rhs_main_v7_0 _ _).trans hk
    | ⟨1, _⟩ => exact Cert.ReferenceIdeal.ReadP.rhs_main_v7_1 _ _)
  rw [el, er]

/-- The two arrays the region is entered with, at their literal types. -/
abbrev leftArr (c : Dev nD) : FVec Ideal Cert.ReferenceIdeal.S100000x320 .f32 := V c main_arg0
abbrev rightArr (c : Dev nD) : FVec Ideal Cert.ReferenceIdeal.S320x128 .f32 := V c main_arg3

/-- Their whole product: the host's `dot_general`. -/
abbrev product (c : Dev nD) : FVec Ideal Cert.ReferenceIdeal.S100000x128 .f32 :=
  Host.dotGeneral (F := Ideal) Cert.ReferenceIdeal.dot_S100000x320_S320x128_S100000x128_1_0_0_1_n_n none (leftArr V c) (rightArr V c)

theorem product_apply (c : Dev nD) (i : Cert.ReferenceIdeal.S100000x128.Idx) :
    product V c i = ∑ k : Fin 320, leftArr V c (Cert.ReferenceIdeal.ReadP.lidx_main_v7 i k) * rightArr V c (Cert.ReferenceIdeal.ReadP.ridx_main_v7 i k) :=
  wholeProduct_apply _ _ i

/-- What point t writes back is block t of the whole product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero origin]
  simp only [View.ld_unit_zero (S := S2000x320) origin, View.ld_unit_zero (S := S320x128) origin]
  obtain ⟨e0, e1, e2, e3, e4, e5⟩ := index_facts t
  funext j
  show k0_pay1 (F := Ideal) (iblk0 V c 0 t) (iblk0 V c 1 t) ((cfg0.win 2).xinj (grid0.coords t) j) = _
  rw [blockProduct_apply, View.read_apply, product_apply]
  refine Finset.sum_congr rfl fun k _ => ?_
  have hl : iblk0 V c 0 t (leftAt ((cfg0.win 2).xinj (grid0.coords t) j) k) = leftArr V c (Cert.ReferenceIdeal.ReadP.lidx_main_v7 (((cfg0.win 2).blk t).view.emb j) k) := by
    show V c main_arg0 (((cfg0.win 0).blk t).view.emb (leftAt ((cfg0.win 2).xinj (grid0.coords t) j) k)) = V c main_arg0 _
    congr 1
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 320 + 1 * k.val = k.val; omega
  have hr : iblk0 V c 1 t (rightAt ((cfg0.win 2).xinj (grid0.coords t) j) k) = rightArr V c (Cert.ReferenceIdeal.ReadP.ridx_main_v7 (((cfg0.win 2).blk t).view.emb j) k) := by
    show V c main_arg3 (((cfg0.win 1).blk t).view.emb (rightAt ((cfg0.win 2).xinj (grid0.coords t) j) k)) = V c main_arg3 _
    congr 1
    funext a; apply Fin.ext
    match a with
    | ⟨0, _⟩ => show win0_1.index t (0 : Fin 2) * 320 + 1 * k.val = k.val; omega
    | ⟨1, _⟩ => show win0_1.index t (1 : Fin 2) * 128 + 1 * (j 1).val = win0_2.index t (1 : Fin 2) * 128 + 1 * (j 1).val; omega
  rw [hl, hr]

/-! ## The blocks tile the rows -/

theorem mem_block (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v31).slice (win0_2.rect t)).set ↔ _
  rw [View.set_slice_whole, Rect.mem_set_unit]
  exact Iff.rfl

/-- Row r lies in the block of point r / 2000. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  obtain ⟨e0, e1, e2, e3, e4, e5⟩ := index_facts t
  have e5' : win0_2.index t (0 : Fin 2) = (i 0).val / 2000 := e5
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The result array after the region: the whole product of the arrays it was entered with. -/
theorem result (c : Dev nD) : (dat0 V c).arrAt 2 cfg0.N = product V c :=
  (dat0 V c).arrAt_eq_of_cover 2 (product V c) (fun t _ => flushed_eq V c t) (covered)

end Cert.KernelIdeal.Whole0

end
-- ==== Proof.Region1.lean ====
/-
  Region 1: bias and clamp, tiled over row blocks. Grid point t takes rows 4000·t … 4000·t + 3999 of the input and the
  one bias row, and writes max (x + bias, 0) into the same rows of the result. Entry (r, j) of block t is
  max (input (4000·t + r, j) + bias (0, j)) 0: entry (4000·t + r, j) of `biasRelu` of the whole arrays. The blocks
  tile the rows, so the result array ends holding `biasRelu` of the arrays the region was entered with.
-/
import proofs.«122157_j40664750358926_1_alg».proof.Proof.Gen.KernelIdeal.Frame
import proofs.«122157_j40664750358926_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.Whole1

open Cert.KernelIdeal Cert.KernelIdeal.Gen Idealize.ShloMosaic Idealize.ShloMosaic.TcCoe Idealize.SL.Sem
open Idealize.ShloMosaic.Pipeline (Dat)
open Cert.ReferenceIdeal.Layers (biasRelu biasRelu_apply)

theorem origin : (![0, 0] : Fin 2 → Nat) = fun _ => 0 := funext fun a => by fin_cases a <;> rfl

/-! ## The block's value at an entry -/

/-- The bias row's entry above column `i 1`. -/
abbrev biasAt (i : S4000x128.Idx) : S1x128.Idx := fun a => match a with
  | ⟨0, _⟩ => ⟨0, Nat.one_pos⟩
  | ⟨1, _⟩ => ⟨(i 1).val, (i 1).isLt⟩

/-- What the body stores, at an entry: the input plus the bias above it, clamped at zero. -/
theorem blockValue_apply (x0 : Vec Ideal S4000x128 .f32) (x1 : Vec Ideal S1x128 .f32) (i : S4000x128.Idx) :
    k1_pay1 (F := Ideal) x0 x1 i = FloatOps.maximumf (FloatOps.addf (x0 i) (x1 (biasAt i))) (FloatOps.ofBits .f32 0x00000000#32) := by
  unfold k1_pay1
  simp only [shapeCast_self]
  have hb : broadcastTo (α := Ideal .f32) S4000x128 x1 broadcasts_S1x128_S4000x128 i = x1 (biasAt i) :=
    broadcastTo_apply (α := Ideal .f32) x1 broadcasts_S1x128_S4000x128 i (biasAt i) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])
  show FloatOps.maximumf (F := Ideal) (FloatOps.addf (F := Ideal) (x0 i) (broadcastTo (α := Ideal .f32) S4000x128 x1 broadcasts_S1x128_S4000x128 i)) _ = _
  rw [hb]
  rfl

/-! ## Block t of the result is block t of the whole function -/

/-- The index maps over the grid: the input window and the result move together down the rows, one block per point;
    the bias window stays at the origin. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

variable (V : (c : Dev nD) → (b : Ref sig .tc) → Buf (Elt Ideal) ((c : Thread nD τ).loc b))

/-- `biasRelu` of the arrays the region is entered with. -/
abbrev whole (c : Dev nD) : Buf (Elt Ideal) ((c : Thread nD τ).loc main_v45) :=
  biasRelu (V c main_v43) (V c main_v44)

/-- What point t writes back is block t of that. -/
theorem flushed_eq (c : Dev nD) (t : Fin cfg1.N) :
    (dat1 V c).flushed 2 t = ((cfg1.win 2).blk t).view.read (Elt Ideal) (whole V c) := by
  show (cfg1.win 2).cut (grid1.coords t) ((dat1 V c).after 2 t) = _
  rw [after1_2]
  unfold out1_2
  rw [View.canon_unit_zero origin]
  simp only [View.ld_unit_zero (S := S4000x128) origin, View.ld_unit_zero (S := S1x128) origin]
  obtain ⟨e0, e1, e2, e3, e4, e5⟩ := index_facts t
  funext j
  show k1_pay1 (F := Ideal) (iblk1 V c 0 t) (iblk1 V c 1 t) ((cfg1.win 2).xinj (grid1.coords t) j) = _
  rw [blockValue_apply, View.read_apply]
  show _ = biasRelu (V c main_v43) (V c main_v44) (((cfg1.win 2).blk t).view.emb j)
  rw [biasRelu_apply]
  have hl : iblk1 V c 0 t ((cfg1.win 2).xinj (grid1.coords t) j) = V c main_v43 (((cfg1.win 2).blk t).view.emb j) := by
    show V c main_v43 (((cfg1.win 0).blk t).view.emb ((cfg1.win 2).xinj (grid1.coords t) j)) = _
    refine congrArg (V c main_v43) ?_
    funext a; apply Fin.ext
    match a with
    | ⟨0, _⟩ => show win1_0.index t (0 : Fin 2) * 4000 + 1 * (j 0).val = win1_2.index t (0 : Fin 2) * 4000 + 1 * (j 0).val; omega
    | ⟨1, _⟩ => show win1_0.index t (1 : Fin 2) * 128 + 1 * (j 1).val = win1_2.index t (1 : Fin 2) * 128 + 1 * (j 1).val; omega
  have hr : iblk1 V c 1 t (biasAt ((cfg1.win 2).xinj (grid1.coords t) j)) = V c main_v44 (Cert.ReferenceIdeal.ReadP.idx_main_v45 (((cfg1.win 2).blk t).view.emb j)) := by
    show V c main_v44 (((cfg1.win 1).blk t).view.emb (biasAt ((cfg1.win 2).xinj (grid1.coords t) j))) = _
    refine congrArg (V c main_v44) ?_
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  rw [hl, hr]

/-! ## The blocks tile the rows -/

theorem mem_block (t : Fin cfg1.N) (i : S100000x128.Idx) :
    i ∈ ((cfg1.win 2).blk t).view.set ↔ ∀ a : Fin 2, win1_2.index t a * S4000x128.size a ≤ (i a).val ∧ (i a).val < win1_2.index t a * S4000x128.size a + S4000x128.size a := by
  show i ∈ ((View.whole main_v45).slice (win1_2.rect t)).set ↔ _
  rw [View.set_slice_whole, Rect.mem_set_unit]
  exact Iff.rfl

/-- Row r lies in the block of point r / 4000. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 25 := N_1
  let t : Fin cfg1.N := ⟨(i 0).val / 4000, by rw [hN]; omega⟩
  obtain ⟨e0, e1, e2, e3, e4, e5⟩ := index_facts t
  have e5' : win1_2.index t (0 : Fin 2) = (i 0).val / 4000 := e5
  refine ⟨t, flush1_2 t, ?_⟩
  rw [mem_block]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 128 ≤ (i 1).val ∧ (i 1).val < win1_2.index t (1 : Fin 2) * 128 + 128; omega

/-- The result array after the region: `biasRelu` of the arrays it was entered with. -/
theorem result (c : Dev nD) : (dat1 V c).arrAt 2 cfg1.N = whole V c :=
  (dat1 V c).arrAt_eq_of_cover 2 (whole V c) (fun t _ => flushed_eq V c t) (covered)

end Cert.KernelIdeal.Whole1

end
-- ==== Proof.Region4.lean ====
/-
  Region 4: the last linear layer, in one grid point. The three input blocks are the whole arrays (the pooled
  features, the weight, the bias row) and the output block is the whole result. The change of float format in front of
  the matrix unit is the identity on the extended reals and the product goes into a zero accumulator, so entry (g, o)
  is (∑ k, pooled (g, k) · weight (k, o)) + bias (0, o): `fc` of the whole arrays at that entry.
-/
import proofs.«122157_j40664750358926_1_alg».proof.Proof.Gen.KernelIdeal.Frame
import proofs.«122157_j40664750358926_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.Whole4

open Cert.KernelIdeal Cert.KernelIdeal.Gen Idealize.ShloMosaic Idealize.ShloMosaic.TcCoe Idealize.SL.Sem
open Idealize.ShloMosaic.Pipeline (Dat)
open Cert.ReferenceIdeal.Layers (fc fc_apply)

theorem origin : (![0, 0] : Fin 2 → Nat) = fun _ => 0 := funext fun a => by fin_cases a <;> rfl

/-! ## The block's value at an entry -/

theorem lhs_axis0 (i : S512x2.Idx) (q : dot_S512x128_S128x2_S512x2_1_0_0_1_n_n.contr.Idx) :
    (dot_S512x128_S128x2_S512x2_1_0_0_1_n_n.lhsIdx i q 0).val = (i 0).val := by
  unfold DotDims.lhsIdx
  rw [dif_neg (show ¬(0 : Fin S512x128.rank) ∈ dot_S512x128_S128x2_S512x2_1_0_0_1_n_n.lhsBatch by decide), dif_pos (show (0 : Fin S512x128.rank) ∈ dot_S512x128_S128x2_S512x2_1_0_0_1_n_n.lhsNonContracting by decide)]
  rfl
theorem lhs_axis1 (i : S512x2.Idx) (q : dot_S512x128_S128x2_S512x2_1_0_0_1_n_n.contr.Idx) :
    (dot_S512x128_S128x2_S512x2_1_0_0_1_n_n.lhsIdx i q 1).val = (q ⟨0, by decide⟩).val :=
  dot_S512x128_S128x2_S512x2_1_0_0_1_n_n.lhsIdx_val_of_single rfl i q
theorem rhs_axis0 (i : S512x2.Idx) (q : dot_S512x128_S128x2_S512x2_1_0_0_1_n_n.contr.Idx) :
    (dot_S512x128_S128x2_S512x2_1_0_0_1_n_n.rhsIdx i q 0).val = (q ⟨0, by decide⟩).val :=
  dot_S512x128_S128x2_S512x2_1_0_0_1_n_n.rhsIdx_val_of_single rfl i q
theorem rhs_axis1 (i : S512x2.Idx) (q : dot_S512x128_S128x2_S512x2_1_0_0_1_n_n.contr.Idx) :
    (dot_S512x128_S128x2_S512x2_1_0_0_1_n_n.rhsIdx i q 1).val = (i 1).val := by
  unfold DotDims.rhsIdx
  rw [dif_neg (show ¬(1 : Fin S128x2.rank) ∈ dot_S512x128_S128x2_S512x2_1_0_0_1_n_n.rhsBatch by decide), dif_pos (show (1 : Fin S128x2.rank) ∈ dot_S512x128_S128x2_S512x2_1_0_0_1_n_n.rhsNonContracting by decide)]
  rfl

/-- Row `i 0` of the pooled features, column `k`. -/
abbrev leftAt (i : S512x2.Idx) (k : Fin 128) : S512x128.Idx := fun a => match a with
  | ⟨0, _⟩ => ⟨(i 0).val, (i 0).isLt⟩
  | ⟨1, _⟩ => ⟨k.val, k.isLt⟩
/-- Row `k` of the weight, column `i 1`. -/
abbrev rightAt (i : S512x2.Idx) (k : Fin 128) : S128x2.Idx := fun a => match a with
  | ⟨0, _⟩ => ⟨k.val, k.isLt⟩
  | ⟨1, _⟩ => ⟨(i 1).val, (i 1).isLt⟩
/-- The bias row's entry above column `i 1`. -/
abbrev biasAt (i : S512x2.Idx) : S1x2.Idx := fun a => match a with
  | ⟨0, _⟩ => ⟨0, Nat.one_pos⟩
  | ⟨1, _⟩ => ⟨(i 1).val, (i 1).isLt⟩

/-- The matrix unit's product into the zero accumulator, at an entry. -/
theorem product_apply (x0 : Vec Ideal S512x128 .f32) (x1 : Vec Ideal S128x2 .f32) (i : S512x2.Idx) :
    FloatOps.matmul (F := Ideal) dot_S512x128_S128x2_S512x2_1_0_0_1_n_n none (truncf .bf16 x0 bitsLt_bf16_f32) (truncf .bf16 x1 bitsLt_bf16_f32) (constant S512x2 .f32 0x00000000#32) i
      = ∑ k : Fin 128, x0 (leftAt i k) * x1 (rightAt i k) := by
  rw [Ideal.matmul_constant_zero_apply, ← Equiv.sum_comp (ValueIdx.contrEquiv1 dot_S512x128_S128x2_S512x2_1_0_0_1_n_n 128 rfl rfl).symm]
  refine Finset.sum_congr rfl fun k _ => ?_
  have hk := ValueIdx.contrEquiv1_symm_val dot_S512x128_S128x2_S512x2_1_0_0_1_n_n 128 rfl rfl k
  have el : dot_S512x128_S128x2_S512x2_1_0_0_1_n_n.lhsIdx i ((ValueIdx.contrEquiv1 dot_S512x128_S128x2_S512x2_1_0_0_1_n_n 128 rfl rfl).symm k) = leftAt i k := funext fun a => Fin.ext (by
    match a with
    | ⟨0, _⟩ => exact lhs_axis0 _ _
    | ⟨1, _⟩ => exact (lhs_axis1 _ _).trans hk)
  have er : dot_S512x128_S128x2_S512x2_1_0_0_1_n_n.rhsIdx i ((ValueIdx.contrEquiv1 dot_S512x128_S128x2_S512x2_1_0_0_1_n_n 128 rfl rfl).symm k) = rightAt i k := funext fun a => Fin.ext (by
    match a with
    | ⟨0, _⟩ => exact (rhs_axis0 _ _).trans hk
    | ⟨1, _⟩ => exact rhs_axis1 _ _)
  rw [el, er]
  rfl

/-- What the body stores, at an entry: the product's entry plus the bias above it. -/
theorem blockValue_apply (x0 : Vec Ideal S512x128 .f32) (x1 : Vec Ideal S128x2 .f32) (x2 : Vec Ideal S1x2 .f32) (i : S512x2.Idx) :
    k4_pay1 (F := Ideal) x0 x1 x2 i = FloatOps.addf (∑ k : Fin 128, x0 (leftAt i k) * x1 (rightAt i k)) (x2 (biasAt i)) := by
  unfold k4_pay1
  simp only [matmul, shapeCast_self]
  have hb : broadcastTo S512x2 x2 broadcasts_S1x2_S512x2 i = x2 (biasAt i) :=
    broadcastTo_apply x2 broadcasts_S1x2_S512x2 i (biasAt i) (fun a => match a with
      | ⟨0, _⟩ => by show 0 = if (1 : Nat) = 1 then 0 else (i 0).val; rw [if_pos rfl]
      | ⟨1, _⟩ => by show (i 1).val = if (2 : Nat) = 1 then 0 else (i 1).val; rw [if_neg (by decide)])
  show FloatOps.addf (FloatOps.matmul (F := Ideal) dot_S512x128_S128x2_S512x2_1_0_0_1_n_n none (truncf .bf16 x0 bitsLt_bf16_f32) (truncf .bf16 x1 bitsLt_bf16_f32) (constant S512x2 .f32 0x00000000#32) i) (broadcastTo S512x2 x2 broadcasts_S1x2_S512x2 i) = _
  rw [product_apply, hb]

/-! ## The one block is the whole result -/

/-- Every window sits at the origin at the grid's one point. -/
theorem index_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

variable (V : (c : Dev nD) → (b : Ref sig .tc) → Buf (Elt Ideal) ((c : Thread nD τ).loc b))

/-- `fc` of the arrays the region is entered with. -/
abbrev whole (c : Dev nD) : Buf (Elt Ideal) ((c : Thread nD τ).loc main_v74) :=
  fc (V c main_v72) (V c main_arg7) (V c main_v73)

/-- What the one point writes back is the whole of that. -/
theorem flushed_eq (c : Dev nD) (t : Fin cfg4.N) :
    (dat4 V c).flushed 3 t = ((cfg4.win 3).blk t).view.read (Elt Ideal) (whole V c) := by
  show (cfg4.win 3).cut (grid4.coords t) ((dat4 V c).after 3 t) = _
  rw [after4_3]
  unfold out4_3
  rw [View.canon_unit_zero origin]
  simp only [View.ld_unit_zero (S := S512x128) origin, View.ld_unit_zero (S := S128x2) origin, View.ld_unit_zero (S := S1x2) origin]
  obtain ⟨e0, e1, e2, e3, e4, e5, e6, e7⟩ := index_facts t
  funext j
  show k4_pay1 (F := Ideal) (iblk4 V c 0 t) (iblk4 V c 1 t) (iblk4 V c 2 t) ((cfg4.win 3).xinj (grid4.coords t) j) = _
  rw [blockValue_apply, View.read_apply]
  show _ = fc (V c main_v72) (V c main_arg7) (V c main_v73) (((cfg4.win 3).blk t).view.emb j)
  rw [fc_apply]
  have hp : ∀ k : Fin 128, iblk4 V c 0 t (leftAt ((cfg4.win 3).xinj (grid4.coords t) j) k) = V c main_v72 (Cert.ReferenceIdeal.ReadP.lidx_main_v101 (((cfg4.win 3).blk t).view.emb j) k) := fun k => by
    show V c main_v72 (((cfg4.win 0).blk t).view.emb (leftAt ((cfg4.win 3).xinj (grid4.coords t) j) k)) = _
    refine congrArg (V c main_v72) ?_
    funext a; apply Fin.ext
    match a with
    | ⟨0, _⟩ => show win4_0.index t (0 : Fin 2) * 512 + 1 * (j 0).val = win4_3.index t (0 : Fin 2) * 512 + 1 * (j 0).val; omega
    | ⟨1, _⟩ => show win4_0.index t (1 : Fin 2) * 128 + 1 * k.val = k.val; omega
  have hw : ∀ k : Fin 128, iblk4 V c 1 t (rightAt ((cfg4.win 3).xinj (grid4.coords t) j) k) = V c main_arg7 (Cert.ReferenceIdeal.ReadP.ridx_main_v101 (((cfg4.win 3).blk t).view.emb j) k) := fun k => by
    show V c main_arg7 (((cfg4.win 1).blk t).view.emb (rightAt ((cfg4.win 3).xinj (grid4.coords t) j) k)) = _
    refine congrArg (V c main_arg7) ?_
    funext a; apply Fin.ext
    match a with
    | ⟨0, _⟩ => show win4_1.index t (0 : Fin 2) * 128 + 1 * k.val = k.val; omega
    | ⟨1, _⟩ => show win4_1.index t (1 : Fin 2) * 2 + 1 * (j 1).val = win4_3.index t (1 : Fin 2) * 2 + 1 * (j 1).val; omega
  have hb : iblk4 V c 2 t (biasAt ((cfg4.win 3).xinj (grid4.coords t) j)) = V c main_v73 (Cert.ReferenceIdeal.ReadP.idx_main_v103 (((cfg4.win 3).blk t).view.emb j)) := by
    show V c main_v73 (((cfg4.win 2).blk t).view.emb (biasAt ((cfg4.win 3).xinj (grid4.coords t) j))) = _
    refine congrArg (V c main_v73) ?_
    funext a; apply Fin.ext
    match a with
    | ⟨0, _⟩ => show win4_2.index t (0 : Fin 2) * 1 + 1 * 0 = 0; omega
    | ⟨1, _⟩ => show win4_2.index t (1 : Fin 2) * 2 + 1 * (j 1).val = win4_3.index t (1 : Fin 2) * 2 + 1 * (j 1).val; omega
  refine congr (congrArg FloatOps.addf ?_) hb
  exact Finset.sum_congr rfl fun k _ => by rw [hp k, hw k]

theorem mem_block (t : Fin cfg4.N) (i : S512x2.Idx) :
    i ∈ ((cfg4.win 3).blk t).view.set ↔ ∀ a : Fin 2, win4_3.index t a * S512x2.size a ≤ (i a).val ∧ (i a).val < win4_3.index t a * S512x2.size a + S512x2.size a := by
  show i ∈ ((View.whole main_v74).slice (win4_3.rect t)).set ↔ _
  rw [View.set_slice_whole, Rect.mem_set_unit]
  exact Iff.rfl

/-- The one block covers the whole array. -/
theorem covered (i : S512x2.Idx) :
    ∃ t : Fin cfg4.N, (cfg4.win 3).flush t = true ∧ i ∈ ((cfg4.win 3).blk t).view.set := by
  have hi0 : (i 0).val < 512 := (i 0).isLt
  have hi1 : (i 1).val < 2 := (i 1).isLt
  obtain ⟨e0, e1, e2, e3, e4, e5, e6, e7⟩ := index_facts t4_0
  refine ⟨t4_0, flush4_3 t4_0, ?_⟩
  rw [mem_block]
  intro a
  match a with
  | ⟨0, _⟩ => show win4_3.index t4_0 (0 : Fin 2) * 512 ≤ (i 0).val ∧ (i 0).val < win4_3.index t4_0 (0 : Fin 2) * 512 + 512; omega
  | ⟨1, _⟩ => show win4_3.index t4_0 (1 : Fin 2) * 2 ≤ (i 1).val ∧ (i 1).val < win4_3.index t4_0 (1 : Fin 2) * 2 + 2; omega

/-- The result array after the region: `fc` of the arrays it was entered with. -/
theorem result (c : Dev nD) : (dat4 V c).arrAt 3 cfg4.N = whole V c :=
  (dat4 V c).arrAt_eq_of_cover 3 (whole V c) (fun t _ => flushed_eq V c t) (covered)

end Cert.KernelIdeal.Whole4

end
-- ==== Proof.HostStretches.lean ====
/-
  The host operations between the regions, one stretch at a time, over any float family: given what the buffers a
  stretch reads hold when it starts (stated as the reference's stages of the argument arrays), each buffer it writes
  holds the reference's next stage of the same arguments — both programs spell the same operations, so once the
  inputs are named alike the two terms agree by unfolding the stages. A buffer a stretch does not write keeps its
  contents. Before the first region: the source and destination index vectors (the edges, then one self loop per
  node), and the per-edge normalization as a column. Between regions: the gather of rows at the sources scaled by the
  normalization and summed into the destinations; the bias as a row. After the last layer: the per-graph sums
  divided by the per-graph counts (at least one).
-/
import proofs.«122157_j40664750358926_1_alg».proof.Proof.Gen.KernelIdeal.Frame
import proofs.«122157_j40664750358926_1_alg».proof.Proof.RefRead
import Idealize.ShloMosaic.Lib.StableHlo.Run
import Idealize.ShloMosaic.Lib.Pipeline.Value

set_option maxRecDepth 16384

noncomputable section

namespace Cert.KernelIdeal.Stretch

open Cert.KernelIdeal Cert.KernelIdeal.Gen Idealize.ShloMosaic Idealize.ShloMosaic.TcCoe Idealize.SL.Sem Idealize.ShloMosaic.StableHlo
open Cert.ReferenceIdeal.ReadP (val_main_v3 val_main_v6 val_main_v7 val_main_v38 val_main_v43 val_main_v44 val_main_v47 val_main_v48 val_main_v84 val_main_v85 val_main_v88 val_main_v100 val_main_v102)

variable {F : FTy → Type} [FloatOps F]

/-! ## Before the first region -/

/-- The source index vector. -/
theorem before_v3 (Wx : Valuation τ sig (Elt F)) :
    StableHlo.after hostOps0_2 (StableHlo.after hostOps0_1 (StableHlo.after hostOps0 Wx)) (Proc.devRef .tc main_v3) = val_main_v3 (F := F) (Wx (Proc.devRef .tc main_arg1)) := by
  simp only [hostOps0, hostOps0_1, hostOps0_2]
  after_results_simp
  rfl

/-- The destination index vector. -/
theorem before_v6 (Wx : Valuation τ sig (Elt F)) :
    StableHlo.after hostOps0_2 (StableHlo.after hostOps0_1 (StableHlo.after hostOps0 Wx)) (Proc.devRef .tc main_v6) = val_main_v6 (F := F) (Wx (Proc.devRef .tc main_arg1)) := by
  simp only [hostOps0, hostOps0_1, hostOps0_2]
  after_results_simp
  rfl

/-- The per-edge normalization (the product of the two endpoints' inverse square-root degrees), as a column. -/
theorem before_v30 (Wx : Valuation τ sig (Elt F)) :
    StableHlo.after hostOps0_2 (StableHlo.after hostOps0_1 (StableHlo.after hostOps0 Wx)) (Proc.devRef .tc main_v30) = val_main_v38 (F := F) (Wx (Proc.devRef .tc main_arg1)) := by
  simp only [hostOps0, hostOps0_1, hostOps0_2]
  after_results_simp
  rfl

theorem before_keeps_main_arg0 (Wx : Valuation τ sig (Elt F)) :
    StableHlo.after hostOps0_2 (StableHlo.after hostOps0_1 (StableHlo.after hostOps0 Wx)) (Proc.devRef .tc main_arg0) = Wx (Proc.devRef .tc main_arg0) := by
  simp only [hostOps0, hostOps0_1, hostOps0_2]
  after_results_simp

theorem before_keeps_main_arg2 (Wx : Valuation τ sig (Elt F)) :
    StableHlo.after hostOps0_2 (StableHlo.after hostOps0_1 (StableHlo.after hostOps0 Wx)) (Proc.devRef .tc main_arg2) = Wx (Proc.devRef .tc main_arg2) := by
  simp only [hostOps0, hostOps0_1, hostOps0_2]
  after_results_simp

theorem before_keeps_main_arg3 (Wx : Valuation τ sig (Elt F)) :
    StableHlo.after hostOps0_2 (StableHlo.after hostOps0_1 (StableHlo.after hostOps0 Wx)) (Proc.devRef .tc main_arg3) = Wx (Proc.devRef .tc main_arg3) := by
  simp only [hostOps0, hostOps0_1, hostOps0_2]
  after_results_simp

theorem before_keeps_main_arg4 (Wx : Valuation τ sig (Elt F)) :
    StableHlo.after hostOps0_2 (StableHlo.after hostOps0_1 (StableHlo.after hostOps0 Wx)) (Proc.devRef .tc main_arg4) = Wx (Proc.devRef .tc main_arg4) := by
  simp only [hostOps0, hostOps0_1, hostOps0_2]
  after_results_simp

theorem before_keeps_main_arg5 (Wx : Valuation τ sig (Elt F)) :
    StableHlo.after hostOps0_2 (StableHlo.after hostOps0_1 (StableHlo.after hostOps0 Wx)) (Proc.devRef .tc main_arg5) = Wx (Proc.devRef .tc main_arg5) := by
  simp only [hostOps0, hostOps0_1, hostOps0_2]
  after_results_simp

theorem before_keeps_main_arg6 (Wx : Valuation τ sig (Elt F)) :
    StableHlo.after hostOps0_2 (StableHlo.after hostOps0_1 (StableHlo.after hostOps0 Wx)) (Proc.devRef .tc main_arg6) = Wx (Proc.devRef .tc main_arg6) := by
  simp only [hostOps0, hostOps0_1, hostOps0_2]
  after_results_simp

theorem before_keeps_main_arg7 (Wx : Valuation τ sig (Elt F)) :
    StableHlo.after hostOps0_2 (StableHlo.after hostOps0_1 (StableHlo.after hostOps0 Wx)) (Proc.devRef .tc main_arg7) = Wx (Proc.devRef .tc main_arg7) := by
  simp only [hostOps0, hostOps0_1, hostOps0_2]
  after_results_simp

theorem before_keeps_main_arg8 (Wx : Valuation τ sig (Elt F)) :
    StableHlo.after hostOps0_2 (StableHlo.after hostOps0_1 (StableHlo.after hostOps0 Wx)) (Proc.devRef .tc main_arg8) = Wx (Proc.devRef .tc main_arg8) := by
  simp only [hostOps0, hostOps0_1, hostOps0_2]
  after_results_simp

/-! ## A bias vector as a row: the kernel's reshape and the reference's broadcast agree -/

theorem row_of_bias128 (x4 : (⟨Cert.ReferenceIdeal.S128, .f32⟩ : BufTy).Contents (Elt F)) :
    shapeCast S1x128 x4 shapeCasts_S128_S1x128 = val_main_v44 (F := F) x4 := by
  funext i
  rw [Cert.ReferenceIdeal.ReadP.val_main_v44_apply]
  exact shapeCast_apply x4 shapeCasts_S128_S1x128 i (Cert.ReferenceIdeal.ReadP.idx_main_v44 i) (by
    have h0 : (i 0).val < 1 := (i 0).isLt
    rw [Shape.rowMajor_val_one, Shape.rowMajor_val_two]
    show (i 1).val = (i 0).val * 128 + (i 1).val
    omega)

theorem row_of_bias2 (x8 : (⟨Cert.ReferenceIdeal.S2, .f32⟩ : BufTy).Contents (Elt F)) :
    shapeCast S1x2 x8 shapeCasts_S2_S1x2 = val_main_v102 (F := F) x8 := by
  funext i
  rw [Cert.ReferenceIdeal.ReadP.val_main_v102_apply]
  exact shapeCast_apply x8 shapeCasts_S2_S1x2 i (Cert.ReferenceIdeal.ReadP.idx_main_v102 i) (by
    have h0 : (i 0).val < 1 := (i 0).isLt
    rw [Shape.rowMajor_val_one, Shape.rowMajor_val_two]
    show (i 1).val = (i 0).val * 2 + (i 1).val
    omega)

/-! ## Between the first matrix product and the first bias-and-clamp -/

/-- The first layer's aggregation: rows gathered at the sources, scaled, summed into the destinations. -/
theorem first_v43 (Wx : Valuation τ sig (Elt F)) (x0 : (⟨Cert.ReferenceIdeal.S100000x320, .f32⟩ : BufTy).Contents (Elt F)) (x1 : (⟨Cert.ReferenceIdeal.S2x1600000, .i32⟩ : BufTy).Contents (Elt F)) (x3 : (⟨Cert.ReferenceIdeal.S320x128, .f32⟩ : BufTy).Contents (Elt F))
    (h31 : Wx (Proc.devRef .tc main_v31) = val_main_v7 (F := F) x0 x3) (h3 : Wx (Proc.devRef .tc main_v3) = val_main_v3 (F := F) x1)
    (h6 : Wx (Proc.devRef .tc main_v6) = val_main_v6 (F := F) x1) (h30 : Wx (Proc.devRef .tc main_v30) = val_main_v38 (F := F) x1) :
    StableHlo.after hostOps1 Wx (Proc.devRef .tc main_v43) = val_main_v43 (F := F) x0 x1 x3 := by
  simp only [hostOps1]
  after_results_simp
  rw [h31, h3, h6, h30]
  rfl

/-- The first bias, as a row. -/
theorem first_v44 (Wx : Valuation τ sig (Elt F)) (x4 : (⟨Cert.ReferenceIdeal.S128, .f32⟩ : BufTy).Contents (Elt F)) (h4 : Wx (Proc.devRef .tc main_arg4) = x4) :
    StableHlo.after hostOps1 Wx (Proc.devRef .tc main_v44) = val_main_v44 (F := F) x4 := by
  simp only [hostOps1]
  after_results_simp
  rw [h4]
  exact row_of_bias128 x4

theorem first_keeps_main_v3 (Wx : Valuation τ sig (Elt F)) :
    StableHlo.after hostOps1 Wx (Proc.devRef .tc main_v3) = Wx (Proc.devRef .tc main_v3) := by
  simp only [hostOps1]
  after_results_simp

theorem first_keeps_main_v6 (Wx : Valuation τ sig (Elt F)) :
    StableHlo.after hostOps1 Wx (Proc.devRef .tc main_v6) = Wx (Proc.devRef .tc main_v6) := by
  simp only [hostOps1]
  after_results_simp

theorem first_keeps_main_v30 (Wx : Valuation τ sig (Elt F)) :
    StableHlo.after hostOps1 Wx (Proc.devRef .tc main_v30) = Wx (Proc.devRef .tc main_v30) := by
  simp only [hostOps1]
  after_results_simp

theorem first_keeps_main_arg2 (Wx : Valuation τ sig (Elt F)) :
    StableHlo.after hostOps1 Wx (Proc.devRef .tc main_arg2) = Wx (Proc.devRef .tc main_arg2) := by
  simp only [hostOps1]
  after_results_simp

theorem first_keeps_main_arg5 (Wx : Valuation τ sig (Elt F)) :
    StableHlo.after hostOps1 Wx (Proc.devRef .tc main_arg5) = Wx (Proc.devRef .tc main_arg5) := by
  simp only [hostOps1]
  after_results_simp

theorem first_keeps_main_arg6 (Wx : Valuation τ sig (Elt F)) :
    StableHlo.after hostOps1 Wx (Proc.devRef .tc main_arg6) = Wx (Proc.devRef .tc main_arg6) := by
  simp only [hostOps1]
  after_results_simp

theorem first_keeps_main_arg7 (Wx : Valuation τ sig (Elt F)) :
    StableHlo.after hostOps1 Wx (Proc.devRef .tc main_arg7) = Wx (Proc.devRef .tc main_arg7) := by
  simp only [hostOps1]
  after_results_simp

theorem first_keeps_main_arg8 (Wx : Valuation τ sig (Elt F)) :
    StableHlo.after hostOps1 Wx (Proc.devRef .tc main_arg8) = Wx (Proc.devRef .tc main_arg8) := by
  simp only [hostOps1]
  after_results_simp

/-! ## Between the second matrix product and the second bias-and-clamp -/

/-- The second layer's aggregation. The reference computes the normalization a second time, by the same operations:
    it is the same column. -/
theorem second_v58 (Wx : Valuation τ sig (Elt F)) (x0 : (⟨Cert.ReferenceIdeal.S100000x320, .f32⟩ : BufTy).Contents (Elt F)) (x1 : (⟨Cert.ReferenceIdeal.S2x1600000, .i32⟩ : BufTy).Contents (Elt F)) (x3 : (⟨Cert.ReferenceIdeal.S320x128, .f32⟩ : BufTy).Contents (Elt F)) (x4 : (⟨Cert.ReferenceIdeal.S128, .f32⟩ : BufTy).Contents (Elt F)) (x5 : (⟨Cert.ReferenceIdeal.S128x128, .f32⟩ : BufTy).Contents (Elt F))
    (h46 : Wx (Proc.devRef .tc main_v46) = val_main_v48 (F := F) x0 x1 x3 x4 x5) (h3 : Wx (Proc.devRef .tc main_v3) = val_main_v3 (F := F) x1)
    (h6 : Wx (Proc.devRef .tc main_v6) = val_main_v6 (F := F) x1) (h30 : Wx (Proc.devRef .tc main_v30) = val_main_v38 (F := F) x1) :
    StableHlo.after hostOps3 Wx (Proc.devRef .tc main_v58) = val_main_v84 (F := F) x0 x1 x3 x4 x5 := by
  simp only [hostOps3]
  after_results_simp
  rw [h46, h3, h6, h30]
  rfl

/-- The second bias, as a row. -/
theorem second_v59 (Wx : Valuation τ sig (Elt F)) (x6 : (⟨Cert.ReferenceIdeal.S128, .f32⟩ : BufTy).Contents (Elt F)) (h6 : Wx (Proc.devRef .tc main_arg6) = x6) :
    StableHlo.after hostOps3 Wx (Proc.devRef .tc main_v59) = val_main_v85 (F := F) x6 := by
  simp only [hostOps3]
  after_results_simp
  rw [h6]
  exact row_of_bias128 x6

theorem second_keeps_main_arg2 (Wx : Valuation τ sig (Elt F)) :
    StableHlo.after hostOps3 Wx (Proc.devRef .tc main_arg2) = Wx (Proc.devRef .tc main_arg2) := by
  simp only [hostOps3]
  after_results_simp

theorem second_keeps_main_arg7 (Wx : Valuation τ sig (Elt F)) :
    StableHlo.after hostOps3 Wx (Proc.devRef .tc main_arg7) = Wx (Proc.devRef .tc main_arg7) := by
  simp only [hostOps3]
  after_results_simp

theorem second_keeps_main_arg8 (Wx : Valuation τ sig (Elt F)) :
    StableHlo.after hostOps3 Wx (Proc.devRef .tc main_arg8) = Wx (Proc.devRef .tc main_arg8) := by
  simp only [hostOps3]
  after_results_simp

/-! ## Before the last linear layer -/

/-- The mean pool: per-graph sums of the node rows over per-graph node counts (at least one). -/
theorem pool_v72 (Wx : Valuation τ sig (Elt F)) (x0 : (⟨Cert.ReferenceIdeal.S100000x320, .f32⟩ : BufTy).Contents (Elt F)) (x1 : (⟨Cert.ReferenceIdeal.S2x1600000, .i32⟩ : BufTy).Contents (Elt F)) (x2 : (⟨Cert.ReferenceIdeal.S100000, .i32⟩ : BufTy).Contents (Elt F)) (x3 : (⟨Cert.ReferenceIdeal.S320x128, .f32⟩ : BufTy).Contents (Elt F)) (x4 : (⟨Cert.ReferenceIdeal.S128, .f32⟩ : BufTy).Contents (Elt F)) (x5 : (⟨Cert.ReferenceIdeal.S128x128, .f32⟩ : BufTy).Contents (Elt F)) (x6 : (⟨Cert.ReferenceIdeal.S128, .f32⟩ : BufTy).Contents (Elt F))
    (h60 : Wx (Proc.devRef .tc main_v60) = val_main_v88 (F := F) x0 x1 x3 x4 x5 x6) (h2 : Wx (Proc.devRef .tc main_arg2) = x2) :
    StableHlo.after hostOps4 Wx (Proc.devRef .tc main_v72) = val_main_v100 (F := F) x0 x1 x2 x3 x4 x5 x6 := by
  simp only [hostOps4]
  after_results_simp
  rw [h60, h2]
  rfl

/-- The last bias, as a row. -/
theorem pool_v73 (Wx : Valuation τ sig (Elt F)) (x8 : (⟨Cert.ReferenceIdeal.S2, .f32⟩ : BufTy).Contents (Elt F)) (h8 : Wx (Proc.devRef .tc main_arg8) = x8) :
    StableHlo.after hostOps4 Wx (Proc.devRef .tc main_v73) = val_main_v102 (F := F) x8 := by
  simp only [hostOps4]
  after_results_simp
  rw [h8]
  exact row_of_bias2 x8

theorem pool_keeps_main_arg7 (Wx : Valuation τ sig (Elt F)) :
    StableHlo.after hostOps4 Wx (Proc.devRef .tc main_arg7) = Wx (Proc.devRef .tc main_arg7) := by
  simp only [hostOps4]
  after_results_simp

end Cert.KernelIdeal.Stretch

end
-- ==== Proof.Chain.lean ====
/-
  The whole run of the program, boundary by boundary. At each segment boundary of the program (after a stretch of
  host operations, after a region) every buffer still to be read holds the reference's stage of the launched argument
  arrays: the index vectors and the normalization column from the edge list; after each matrix-product region the
  reference's `dot_general` stage; after each aggregation stretch its scatter-sum stage; after each bias-and-clamp
  region the reference's bias, add and relu stages; after the pooling stretch its quotient stage; and after the last
  region the reference's result. Arguments are never written, so they keep their launch contents throughout.
-/
import proofs.«122157_j40664750358926_1_alg».proof.Proof.Gen.KernelIdeal.Frame
import proofs.«122157_j40664750358926_1_alg».proof.Proof.RefRead
import proofs.«122157_j40664750358926_1_alg».proof.Proof.Layers
import proofs.«122157_j40664750358926_1_alg».proof.Proof.Region0
import proofs.«122157_j40664750358926_1_alg».proof.Proof.Region1
import proofs.«122157_j40664750358926_1_alg».proof.Proof.Region2
import proofs.«122157_j40664750358926_1_alg».proof.Proof.Region3
import proofs.«122157_j40664750358926_1_alg».proof.Proof.Region4
import proofs.«122157_j40664750358926_1_alg».proof.Proof.HostStretches

set_option maxRecDepth 16384

noncomputable section

namespace Cert.KernelIdeal.Chain

open Cert.KernelIdeal Cert.KernelIdeal.Gen Idealize.ShloMosaic Idealize.ShloMosaic.TcCoe Idealize.SL.Sem
open Cert.ReferenceIdeal.ReadP (val_main_v3 val_main_v6 val_main_v7 val_main_v38 val_main_v43 val_main_v44 val_main_v47 val_main_v48 val_main_v84 val_main_v85 val_main_v88 val_main_v100 val_main_v102 val_main_v104)
open Cert.ReferenceIdeal.Layers (biasRelu fc)

variable (m : (ℓ : Loc nD τ sig) → Buf (Elt Ideal) ℓ) (ρ : Dev nD → PrngReg)

/-- The argument arrays as launched, at their literal types. -/
abbrev x0 (c : Dev nD) : (⟨Cert.ReferenceIdeal.S100000x320, .f32⟩ : BufTy).Contents (Elt Ideal) := m ((c : Thread nD τ).loc main_arg0)
abbrev x1 (c : Dev nD) : (⟨Cert.ReferenceIdeal.S2x1600000, .i32⟩ : BufTy).Contents (Elt Ideal) := m ((c : Thread nD τ).loc main_arg1)
abbrev x2 (c : Dev nD) : (⟨Cert.ReferenceIdeal.S100000, .i32⟩ : BufTy).Contents (Elt Ideal) := m ((c : Thread nD τ).loc main_arg2)
abbrev x3 (c : Dev nD) : (⟨Cert.ReferenceIdeal.S320x128, .f32⟩ : BufTy).Contents (Elt Ideal) := m ((c : Thread nD τ).loc main_arg3)
abbrev x4 (c : Dev nD) : (⟨Cert.ReferenceIdeal.S128, .f32⟩ : BufTy).Contents (Elt Ideal) := m ((c : Thread nD τ).loc main_arg4)
abbrev x5 (c : Dev nD) : (⟨Cert.ReferenceIdeal.S128x128, .f32⟩ : BufTy).Contents (Elt Ideal) := m ((c : Thread nD τ).loc main_arg5)
abbrev x6 (c : Dev nD) : (⟨Cert.ReferenceIdeal.S128, .f32⟩ : BufTy).Contents (Elt Ideal) := m ((c : Thread nD τ).loc main_arg6)
abbrev x7 (c : Dev nD) : (⟨Cert.ReferenceIdeal.S128x2, .f32⟩ : BufTy).Contents (Elt Ideal) := m ((c : Thread nD τ).loc main_arg7)
abbrev x8 (c : Dev nD) : (⟨Cert.ReferenceIdeal.S2, .f32⟩ : BufTy).Contents (Elt Ideal) := m ((c : Thread nD τ).loc main_arg8)

/-! ## The reference's layer stages are the whole-array functions the regions compute -/

theorem stage47 (c : Dev nD) : val_main_v47 (F := Ideal) (x0 m c) (x1 m c) (x3 m c) (x4 m c)
    = biasRelu (val_main_v43 (F := Ideal) (x0 m c) (x1 m c) (x3 m c)) (val_main_v44 (F := Ideal) (x4 m c)) := rfl
theorem stage88 (c : Dev nD) : val_main_v88 (F := Ideal) (x0 m c) (x1 m c) (x3 m c) (x4 m c) (x5 m c) (x6 m c)
    = biasRelu (val_main_v84 (F := Ideal) (x0 m c) (x1 m c) (x3 m c) (x4 m c) (x5 m c)) (val_main_v85 (F := Ideal) (x6 m c)) := rfl
theorem stage104 (c : Dev nD) : val_main_v104 (F := Ideal) (x0 m c) (x1 m c) (x2 m c) (x3 m c) (x4 m c) (x5 m c) (x6 m c) (x7 m c) (x8 m c)
    = fc (val_main_v100 (F := Ideal) (x0 m c) (x1 m c) (x2 m c) (x3 m c) (x4 m c) (x5 m c) (x6 m c)) (x7 m c) (val_main_v102 (F := Ideal) (x8 m c)) := rfl

/-! ## At the first region's entry -/

theorem w3_v3 (c : Dev nD) : W3 m ρ c (Proc.devRef .tc main_v3) = val_main_v3 (F := Ideal) (x1 m c) := Cert.KernelIdeal.Stretch.before_v3 (W0 m ρ c)
theorem w3_v6 (c : Dev nD) : W3 m ρ c (Proc.devRef .tc main_v6) = val_main_v6 (F := Ideal) (x1 m c) := Cert.KernelIdeal.Stretch.before_v6 (W0 m ρ c)
theorem w3_v30 (c : Dev nD) : W3 m ρ c (Proc.devRef .tc main_v30) = val_main_v38 (F := Ideal) (x1 m c) := Cert.KernelIdeal.Stretch.before_v30 (W0 m ρ c)
theorem w3_arg0 (c : Dev nD) : W3 m ρ c (Proc.devRef .tc main_arg0) = x0 m c := Cert.KernelIdeal.Stretch.before_keeps_main_arg0 (W0 m ρ c)
theorem w3_arg2 (c : Dev nD) : W3 m ρ c (Proc.devRef .tc main_arg2) = x2 m c := Cert.KernelIdeal.Stretch.before_keeps_main_arg2 (W0 m ρ c)
theorem w3_arg3 (c : Dev nD) : W3 m ρ c (Proc.devRef .tc main_arg3) = x3 m c := Cert.KernelIdeal.Stretch.before_keeps_main_arg3 (W0 m ρ c)
theorem w3_arg4 (c : Dev nD) : W3 m ρ c (Proc.devRef .tc main_arg4) = x4 m c := Cert.KernelIdeal.Stretch.before_keeps_main_arg4 (W0 m ρ c)
theorem w3_arg5 (c : Dev nD) : W3 m ρ c (Proc.devRef .tc main_arg5) = x5 m c := Cert.KernelIdeal.Stretch.before_keeps_main_arg5 (W0 m ρ c)
theorem w3_arg6 (c : Dev nD) : W3 m ρ c (Proc.devRef .tc main_arg6) = x6 m c := Cert.KernelIdeal.Stretch.before_keeps_main_arg6 (W0 m ρ c)
theorem w3_arg7 (c : Dev nD) : W3 m ρ c (Proc.devRef .tc main_arg7) = x7 m c := Cert.KernelIdeal.Stretch.before_keeps_main_arg7 (W0 m ρ c)
theorem w3_arg8 (c : Dev nD) : W3 m ρ c (Proc.devRef .tc main_arg8) = x8 m c := Cert.KernelIdeal.Stretch.before_keeps_main_arg8 (W0 m ρ c)

/-! ## After the first matrix product -/

theorem w4_v31 (c : Dev nD) : W4 m ρ c (Proc.devRef .tc main_v31) = val_main_v7 (F := Ideal) (x0 m c) (x3 m c) :=
  (W4_arr m ρ c 2).trans ((Whole0.result (V3 m ρ) c).trans
    (congrArg₂ (fun a b => Host.dotGeneral (F := Ideal) Cert.ReferenceIdeal.dot_S100000x320_S320x128_S100000x128_1_0_0_1_n_n none a b) (w3_arg0 m ρ c) (w3_arg3 m ρ c)))
theorem w4_v3 (c : Dev nD) : W4 m ρ c (Proc.devRef .tc main_v3) = val_main_v3 (F := Ideal) (x1 m c) := (W4_of_ne m ρ c main_v3 (by decide)).trans (w3_v3 m ρ c)
theorem w4_v6 (c : Dev nD) : W4 m ρ c (Proc.devRef .tc main_v6) = val_main_v6 (F := Ideal) (x1 m c) := (W4_of_ne m ρ c main_v6 (by decide)).trans (w3_v6 m ρ c)
theorem w4_v30 (c : Dev nD) : W4 m ρ c (Proc.devRef .tc main_v30) = val_main_v38 (F := Ideal) (x1 m c) := (W4_of_ne m ρ c main_v30 (by decide)).trans (w3_v30 m ρ c)
theorem w4_arg2 (c : Dev nD) : W4 m ρ c (Proc.devRef .tc main_arg2) = x2 m c := (W4_of_ne m ρ c main_arg2 (by decide)).trans (w3_arg2 m ρ c)
theorem w4_arg4 (c : Dev nD) : W4 m ρ c (Proc.devRef .tc main_arg4) = x4 m c := (W4_of_ne m ρ c main_arg4 (by decide)).trans (w3_arg4 m ρ c)
theorem w4_arg5 (c : Dev nD) : W4 m ρ c (Proc.devRef .tc main_arg5) = x5 m c := (W4_of_ne m ρ c main_arg5 (by decide)).trans (w3_arg5 m ρ c)
theorem w4_arg6 (c : Dev nD) : W4 m ρ c (Proc.devRef .tc main_arg6) = x6 m c := (W4_of_ne m ρ c main_arg6 (by decide)).trans (w3_arg6 m ρ c)
theorem w4_arg7 (c : Dev nD) : W4 m ρ c (Proc.devRef .tc main_arg7) = x7 m c := (W4_of_ne m ρ c main_arg7 (by decide)).trans (w3_arg7 m ρ c)
theorem w4_arg8 (c : Dev nD) : W4 m ρ c (Proc.devRef .tc main_arg8) = x8 m c := (W4_of_ne m ρ c main_arg8 (by decide)).trans (w3_arg8 m ρ c)

/-! ## After the first aggregation -/

theorem w5_v43 (c : Dev nD) : W5 m ρ c (Proc.devRef .tc main_v43) = val_main_v43 (F := Ideal) (x0 m c) (x1 m c) (x3 m c) :=
  Cert.KernelIdeal.Stretch.first_v43 (W4 m ρ c) (x0 m c) (x1 m c) (x3 m c) (w4_v31 m ρ c) (w4_v3 m ρ c) (w4_v6 m ρ c) (w4_v30 m ρ c)
theorem w5_v44 (c : Dev nD) : W5 m ρ c (Proc.devRef .tc main_v44) = val_main_v44 (F := Ideal) (x4 m c) :=
  Cert.KernelIdeal.Stretch.first_v44 (W4 m ρ c) (x4 m c) (w4_arg4 m ρ c)
theorem w5_v3 (c : Dev nD) : W5 m ρ c (Proc.devRef .tc main_v3) = val_main_v3 (F := Ideal) (x1 m c) := (Cert.KernelIdeal.Stretch.first_keeps_main_v3 (W4 m ρ c)).trans (w4_v3 m ρ c)
theorem w5_v6 (c : Dev nD) : W5 m ρ c (Proc.devRef .tc main_v6) = val_main_v6 (F := Ideal) (x1 m c) := (Cert.KernelIdeal.Stretch.first_keeps_main_v6 (W4 m ρ c)).trans (w4_v6 m ρ c)
theorem w5_v30 (c : Dev nD) : W5 m ρ c (Proc.devRef .tc main_v30) = val_main_v38 (F := Ideal) (x1 m c) := (Cert.KernelIdeal.Stretch.first_keeps_main_v30 (W4 m ρ c)).trans (w4_v30 m ρ c)
theorem w5_arg2 (c : Dev nD) : W5 m ρ c (Proc.devRef .tc main_arg2) = x2 m c := (Cert.KernelIdeal.Stretch.first_keeps_main_arg2 (W4 m ρ c)).trans (w4_arg2 m ρ c)
theorem w5_arg5 (c : Dev nD) : W5 m ρ c (Proc.devRef .tc main_arg5) = x5 m c := (Cert.KernelIdeal.Stretch.first_keeps_main_arg5 (W4 m ρ c)).trans (w4_arg5 m ρ c)
theorem w5_arg6 (c : Dev nD) : W5 m ρ c (Proc.devRef .tc main_arg6) = x6 m c := (Cert.KernelIdeal.Stretch.first_keeps_main_arg6 (W4 m ρ c)).trans (w4_arg6 m ρ c)
theorem w5_arg7 (c : Dev nD) : W5 m ρ c (Proc.devRef .tc main_arg7) = x7 m c := (Cert.KernelIdeal.Stretch.first_keeps_main_arg7 (W4 m ρ c)).trans (w4_arg7 m ρ c)
theorem w5_arg8 (c : Dev nD) : W5 m ρ c (Proc.devRef .tc main_arg8) = x8 m c := (Cert.KernelIdeal.Stretch.first_keeps_main_arg8 (W4 m ρ c)).trans (w4_arg8 m ρ c)

/-! ## After the first bias-and-clamp -/

theorem w6_v45 (c : Dev nD) : W6 m ρ c (Proc.devRef .tc main_v45) = val_main_v47 (F := Ideal) (x0 m c) (x1 m c) (x3 m c) (x4 m c) :=
  (W6_arr m ρ c 2).trans ((Whole1.result (V5 m ρ) c).trans
    ((congrArg₂ biasRelu (w5_v43 m ρ c) (w5_v44 m ρ c)).trans (stage47 m c).symm))
theorem w6_v3 (c : Dev nD) : W6 m ρ c (Proc.devRef .tc main_v3) = val_main_v3 (F := Ideal) (x1 m c) := (W6_of_ne m ρ c main_v3 (by decide)).trans (w5_v3 m ρ c)
theorem w6_v6 (c : Dev nD) : W6 m ρ c (Proc.devRef .tc main_v6) = val_main_v6 (F := Ideal) (x1 m c) := (W6_of_ne m ρ c main_v6 (by decide)).trans (w5_v6 m ρ c)
theorem w6_v30 (c : Dev nD) : W6 m ρ c (Proc.devRef .tc main_v30) = val_main_v38 (F := Ideal) (x1 m c) := (W6_of_ne m ρ c main_v30 (by decide)).trans (w5_v30 m ρ c)
theorem w6_arg2 (c : Dev nD) : W6 m ρ c (Proc.devRef .tc main_arg2) = x2 m c := (W6_of_ne m ρ c main_arg2 (by decide)).trans (w5_arg2 m ρ c)
theorem w6_arg5 (c : Dev nD) : W6 m ρ c (Proc.devRef .tc main_arg5) = x5 m c := (W6_of_ne m ρ c main_arg5 (by decide)).trans (w5_arg5 m ρ c)
theorem w6_arg6 (c : Dev nD) : W6 m ρ c (Proc.devRef .tc main_arg6) = x6 m c := (W6_of_ne m ρ c main_arg6 (by decide)).trans (w5_arg6 m ρ c)
theorem w6_arg7 (c : Dev nD) : W6 m ρ c (Proc.devRef .tc main_arg7) = x7 m c := (W6_of_ne m ρ c main_arg7 (by decide)).trans (w5_arg7 m ρ c)
theorem w6_arg8 (c : Dev nD) : W6 m ρ c (Proc.devRef .tc main_arg8) = x8 m c := (W6_of_ne m ρ c main_arg8 (by decide)).trans (w5_arg8 m ρ c)

/-! ## After the second matrix product -/

theorem w7_v46 (c : Dev nD) : W7 m ρ c (Proc.devRef .tc main_v46) = val_main_v48 (F := Ideal) (x0 m c) (x1 m c) (x3 m c) (x4 m c) (x5 m c) :=
  (W7_arr m ρ c 2).trans ((Whole2.result (V6 m ρ) c).trans
    (congrArg₂ (fun a b => Host.dotGeneral (F := Ideal) Cert.ReferenceIdeal.dot_S100000x128_S128x128_S100000x128_1_0_0_1_n_n none a b) (w6_v45 m ρ c) (w6_arg5 m ρ c)))
theorem w7_v3 (c : Dev nD) : W7 m ρ c (Proc.devRef .tc main_v3) = val_main_v3 (F := Ideal) (x1 m c) := (W7_of_ne m ρ c main_v3 (by decide)).trans (w6_v3 m ρ c)
theorem w7_v6 (c : Dev nD) : W7 m ρ c (Proc.devRef .tc main_v6) = val_main_v6 (F := Ideal) (x1 m c) := (W7_of_ne m ρ c main_v6 (by decide)).trans (w6_v6 m ρ c)
theorem w7_v30 (c : Dev nD) : W7 m ρ c (Proc.devRef .tc main_v30) = val_main_v38 (F := Ideal) (x1 m c) := (W7_of_ne m ρ c main_v30 (by decide)).trans (w6_v30 m ρ c)
theorem w7_arg2 (c : Dev nD) : W7 m ρ c (Proc.devRef .tc main_arg2) = x2 m c := (W7_of_ne m ρ c main_arg2 (by decide)).trans (w6_arg2 m ρ c)
theorem w7_arg6 (c : Dev nD) : W7 m ρ c (Proc.devRef .tc main_arg6) = x6 m c := (W7_of_ne m ρ c main_arg6 (by decide)).trans (w6_arg6 m ρ c)
theorem w7_arg7 (c : Dev nD) : W7 m ρ c (Proc.devRef .tc main_arg7) = x7 m c := (W7_of_ne m ρ c main_arg7 (by decide)).trans (w6_arg7 m ρ c)
theorem w7_arg8 (c : Dev nD) : W7 m ρ c (Proc.devRef .tc main_arg8) = x8 m c := (W7_of_ne m ρ c main_arg8 (by decide)).trans (w6_arg8 m ρ c)

/-! ## After the second aggregation -/

theorem w8_v58 (c : Dev nD) : W8 m ρ c (Proc.devRef .tc main_v58) = val_main_v84 (F := Ideal) (x0 m c) (x1 m c) (x3 m c) (x4 m c) (x5 m c) :=
  Cert.KernelIdeal.Stretch.second_v58 (W7 m ρ c) (x0 m c) (x1 m c) (x3 m c) (x4 m c) (x5 m c) (w7_v46 m ρ c) (w7_v3 m ρ c) (w7_v6 m ρ c) (w7_v30 m ρ c)
theorem w8_v59 (c : Dev nD) : W8 m ρ c (Proc.devRef .tc main_v59) = val_main_v85 (F := Ideal) (x6 m c) :=
  Cert.KernelIdeal.Stretch.second_v59 (W7 m ρ c) (x6 m c) (w7_arg6 m ρ c)
theorem w8_arg2 (c : Dev nD) : W8 m ρ c (Proc.devRef .tc main_arg2) = x2 m c := (Cert.KernelIdeal.Stretch.second_keeps_main_arg2 (W7 m ρ c)).trans (w7_arg2 m ρ c)
theorem w8_arg7 (c : Dev nD) : W8 m ρ c (Proc.devRef .tc main_arg7) = x7 m c := (Cert.KernelIdeal.Stretch.second_keeps_main_arg7 (W7 m ρ c)).trans (w7_arg7 m ρ c)
theorem w8_arg8 (c : Dev nD) : W8 m ρ c (Proc.devRef .tc main_arg8) = x8 m c := (Cert.KernelIdeal.Stretch.second_keeps_main_arg8 (W7 m ρ c)).trans (w7_arg8 m ρ c)

/-! ## After the second bias-and-clamp -/

theorem w9_v60 (c : Dev nD) : W9 m ρ c (Proc.devRef .tc main_v60) = val_main_v88 (F := Ideal) (x0 m c) (x1 m c) (x3 m c) (x4 m c) (x5 m c) (x6 m c) :=
  (W9_arr m ρ c 2).trans ((Whole3.result (V8 m ρ) c).trans
    ((congrArg₂ biasRelu (w8_v58 m ρ c) (w8_v59 m ρ c)).trans (stage88 m c).symm))
theorem w9_arg2 (c : Dev nD) : W9 m ρ c (Proc.devRef .tc main_arg2) = x2 m c := (W9_of_ne m ρ c main_arg2 (by decide)).trans (w8_arg2 m ρ c)
theorem w9_arg7 (c : Dev nD) : W9 m ρ c (Proc.devRef .tc main_arg7) = x7 m c := (W9_of_ne m ρ c main_arg7 (by decide)).trans (w8_arg7 m ρ c)
theorem w9_arg8 (c : Dev nD) : W9 m ρ c (Proc.devRef .tc main_arg8) = x8 m c := (W9_of_ne m ρ c main_arg8 (by decide)).trans (w8_arg8 m ρ c)

/-! ## After the mean pool -/

theorem w10_v72 (c : Dev nD) : W10 m ρ c (Proc.devRef .tc main_v72) = val_main_v100 (F := Ideal) (x0 m c) (x1 m c) (x2 m c) (x3 m c) (x4 m c) (x5 m c) (x6 m c) :=
  Cert.KernelIdeal.Stretch.pool_v72 (W9 m ρ c) (x0 m c) (x1 m c) (x2 m c) (x3 m c) (x4 m c) (x5 m c) (x6 m c) (w9_v60 m ρ c) (w9_arg2 m ρ c)
theorem w10_v73 (c : Dev nD) : W10 m ρ c (Proc.devRef .tc main_v73) = val_main_v102 (F := Ideal) (x8 m c) :=
  Cert.KernelIdeal.Stretch.pool_v73 (W9 m ρ c) (x8 m c) (w9_arg8 m ρ c)
theorem w10_arg7 (c : Dev nD) : W10 m ρ c (Proc.devRef .tc main_arg7) = x7 m c := (Cert.KernelIdeal.Stretch.pool_keeps_main_arg7 (W9 m ρ c)).trans (w9_arg7 m ρ c)

/-! ## After the last linear layer: the result -/

/-- The result array at the last boundary is the reference's result stage of the launched arguments. -/
theorem result (c : Dev nD) : W11 m ρ c (Proc.devRef .tc main_v74) = val_main_v104 (F := Ideal) (x0 m c) (x1 m c) (x2 m c) (x3 m c) (x4 m c) (x5 m c) (x6 m c) (x7 m c) (x8 m c) :=
  (W11_arr m ρ c 3).trans ((Whole4.result (V10 m ρ) c).trans
    ((congr (congrArg₂ fc (w10_v72 m ρ c) (w10_arg7 m ρ c)) (w10_v73 m ρ c)).trans (stage104 m c).symm))

end Cert.KernelIdeal.Chain

end
-- ==== Proof.lean ====
/-
  Two GCN layers, a mean pool and a linear layer, against their plain jnp reference, over the extended reals.

  The kernel program is five tiled regions among stretches of host operations: a matrix product x·W1, the neighbour
  aggregation on the host (gather at the sources, scale by the normalization, sum into the destinations), bias and
  clamp, a second matrix product, a second aggregation, bias and clamp again, the per-graph mean on the host, and the
  last linear layer. The reference does the same steps with `dot_general`, `add` and `maximum` on the host.

  At Ideal a change of float format is the identity and a matrix-unit product into a zero accumulator is the plain
  sum over the shared axis, so each region leaves in its result array one whole-array function of the arrays it was
  entered with — the reference's own stage — (Region0 … Region4: every block is the block of that function, and the
  blocks tile the array). Every host stretch spells the reference's operations (HostStretches). Following the
  segment boundaries of the program from the launch to the return (Chain), the result array ends at the reference's
  result stage of the launched arguments; the reference's run ends at the same stage of its own arguments, which
  agree. No law beyond the definitions is used, so the precondition is never opened.

  The three frames: the two kernel programs' are the generated ones; the reference's is its run with the result
  dropped. The idealization rewrote nothing, so `preserves` is trivial.
-/
import proofs.«122157_j40664750358926_1_alg».proof.Defs
import proofs.«122157_j40664750358926_1_alg».proof.Proof.Gen.Kernel
import proofs.«122157_j40664750358926_1_alg».proof.Proof.Gen.Kernel.Skeleton
import proofs.«122157_j40664750358926_1_alg».proof.Proof.Gen.Kernel.Launch
import proofs.«122157_j40664750358926_1_alg».proof.Proof.Gen.Kernel.Points
import proofs.«122157_j40664750358926_1_alg».proof.Proof.Gen.Kernel.Frame
import proofs.«122157_j40664750358926_1_alg».proof.Proof.Gen.KernelIdeal
import proofs.«122157_j40664750358926_1_alg».proof.Proof.Gen.KernelIdeal.Skeleton
import proofs.«122157_j40664750358926_1_alg».proof.Proof.Gen.KernelIdeal.Launch
import proofs.«122157_j40664750358926_1_alg».proof.Proof.Gen.KernelIdeal.Points
import proofs.«122157_j40664750358926_1_alg».proof.Proof.Gen.KernelIdeal.Frame
import proofs.«122157_j40664750358926_1_alg».proof.Proof.Gen.ReferenceIdeal
import proofs.«122157_j40664750358926_1_alg».proof.Proof.Gen.Pre_finite_inputs
import proofs.«122157_j40664750358926_1_alg».proof.Proof.RefRead
import proofs.«122157_j40664750358926_1_alg».proof.Proof.ResultRun
import proofs.«122157_j40664750358926_1_alg».proof.Proof.Chain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the result array at the reference's result stage of the argument arrays, which agree. -/
theorem algebraic : Cert.algebraic_KernelIdeal_ReferenceIdeal := by
  intro m ρ m' ρ' _ hagree
  refine ⟨fun c => Cert.ReferenceIdeal.ReadP.val_main_v104 (F := Ideal) (Cert.KernelIdeal.Chain.x0 m c) (Cert.KernelIdeal.Chain.x1 m c) (Cert.KernelIdeal.Chain.x2 m c)
      (Cert.KernelIdeal.Chain.x3 m c) (Cert.KernelIdeal.Chain.x4 m c) (Cert.KernelIdeal.Chain.x5 m c) (Cert.KernelIdeal.Chain.x6 m c) (Cert.KernelIdeal.Chain.x7 m c)
      (Cert.KernelIdeal.Chain.x8 m c), ?_, ?_⟩
  · exact (θ_run Cert.KernelIdeal.defs _ _).mono (fun _ h c => ⟨(h c).1.trans (Cert.KernelIdeal.Chain.result m ρ c), (h c).2⟩)
      (Cert.KernelIdeal.ResultRun.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5, a6, a7, a8⟩ := hagree c
    rw [Cert.ReferenceIdeal.ReadP.val_main_v104_eq, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
